-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x32000 : Shape := ⟨3, ![16, 512, 32000]⟩
abbrev S16x512 : Shape := ⟨2, ![16, 512]⟩
abbrev S_ : Shape := ⟨0, ![]⟩

class Facts : Prop where
  bcast_S_S16x512x32000 : S_.BroadcastsInDim S16x512x32000 (![] : Fin 0 → Fin S16x512x32000.rank)
  reducesTo_S16x512x32000_S_d0_1_2 : S16x512x32000.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_

variable [Facts]

def fn {F : FTy → Type} [FloatOps F] (main_arg0 : FVec F S16x512x32000 .f32) (main_arg1 : IVec S16x512 32) : IVec S_ 1 :=
  let main_v0 : FVec F S16x512x32000 .f32 := Host.absf main_arg0
  let main_cst : FVec F S_ .f32 := constant S_ .f32 0x7F800000#32
  let main_v1 : FVec F S16x512x32000 .f32 := broadcastInDim S16x512x32000 ![] bcast_S_S16x512x32000 main_cst
  let main_v2 : IVec S16x512x32000 1 := cmpf .olt main_v0 main_v1
  let main_c : IVec S_ 1 := constantI S_ 1 1#1
  let main_v3 : IVec S_ 1 := (fun x v => Host.reduce IntOp.andi x v reducesTo_S16x512x32000_S_d0_1_2 h_S_) main_v2 main_c
  let main_c_0 : IVec S_ 32 := constantI S_ 32 0#32
  let main_v4 : IVec S16x512 32 := broadcastInDim S16x512 ![] bcast_S_S16x512 main_c_0
  let main_v5 : IVec S16x512 1 := cmpi .sge main_arg1 main_v4
  let main_c_1 : IVec S_ 32 := constantI S_ 32 32000#32
  let main_v6 : IVec S16x512 32 := broadcastInDim S16x512 ![] bcast_S_S16x512 main_c_1
  let main_v7 : IVec S16x512 1 := cmpi .slt main_arg1 main_v6
  let main_v8 : IVec S16x512 1 := andi main_v5 main_v7
  let main_c_2 : IVec S_ 1 := constantI S_ 1 1#1
  let main_v9 : IVec S_ 1 := (fun x v => Host.reduce IntOp.andi x v reducesTo_S16x512_S_d0_1 h_S_) main_v8 main_c_2
  let main_v10 : IVec S_ 1 := andi main_v3 main_v9
  main_v10
-- ==== Kernel.lean ====
abbrev S16x512x32000 : Shape := ⟨3, ![16, 512, 32000]⟩
abbrev S16x512 : Shape := ⟨2, ![16, 512]⟩
abbrev S8192x32000 : Shape := ⟨2, ![8192, 32000]⟩
abbrev S8192x1 : Shape := ⟨2, ![8192, 1]⟩
abbrev S8x1x1 : Shape := ⟨3, ![8, 1, 1]⟩
abbrev S1024x6400 : Shape := ⟨2, ![1024, 6400]⟩
abbrev S1024x1 : Shape := ⟨2, ![1024, 1]⟩
abbrev S1x1x1 : Shape := ⟨3, ![1, 1, 1]⟩
abbrev S1x6400 : Shape := ⟨2, ![1, 6400]⟩
abbrev S1024 : Shape := ⟨1, ![1024]⟩
abbrev S1x1024x1 : Shape := ⟨3, ![1, 1024, 1]⟩
abbrev S1 : Shape := ⟨1, ![1]⟩
abbrev S_ : Shape := ⟨0, ![]⟩

abbrev nBuf : Space → Nat
  | .hbm => 11
  | .vmem => 9
  | .smem => 0
  | _ => 0

abbrev bufTy : (tb : Table) → Fin (tcTables nBuf tb) → BufTy
  | .hbm, ⟨0, _⟩ => ⟨S16x512x32000, .f32⟩
  | .hbm, ⟨1, _⟩ => ⟨S16x512, .i32⟩
  | .hbm, ⟨2, _⟩ => ⟨S8192x32000, .f32⟩
  | .hbm, ⟨3, _⟩ => ⟨S8192x1, .i32⟩
  | .hbm, ⟨4, _⟩ => ⟨S8x1x1, .f32⟩
  | .hbm, ⟨5, _⟩ => ⟨S8x1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1024x6400, .f32⟩
  | .local _ .vmem, ⟨1, _⟩ => ⟨S1024x6400, .f32⟩
  | .local _ .vmem, ⟨2, _⟩ => ⟨S1024x1, .i32⟩
  | .local _ .vmem, ⟨3, _⟩ => ⟨S1024x1, .i32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | .local _ .vmem, ⟨8, _⟩ => ⟨S1024x1, .f32⟩
  | _, _ => ⟨S16x512x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg1 : BitVec 32 := BitVec.ofNat 32 (i 1).val
  let c4_i32 : BitVec 32 := 4#32
  let v23 : BitVec 1 := Scalar.cmpi .eq arg1 c4_i32
  let v24 : BitVec 32 := Scalar.extui v23
  let c0_i32_9 : BitVec 32 := 0#32
  let v25 : BitVec 1 := Scalar.cmpi .ne v24 c0_i32_9
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16x512x32000_S8192x32000 : S16x512x32000.ShapeCasts S8192x32000
  shapeCasts_S16x512_S8192x1 : S16x512.ShapeCasts S8192x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1x6400_d1_w32 : S1x6400.Iotas .tc 32 [1]
  broadcasts_S1x6400_S1024x6400 : S1x6400.Broadcasts S1024x6400
  broadcasts_S1024x1_S1024x6400 : S1024x1.Broadcasts S1024x6400
  inb_S1024x6400_S1024x6400_0_0 : ∀ a, (![0, 0] : Fin 2 → Nat) a + S1024x6400.size a ≤ S1024x6400.size a
  h_S1024x6400 : 0 < S1024x6400.numel
  shapeCasts_S1024x6400_S1024x6400 : S1024x6400.ShapeCasts S1024x6400
  reduces_S1024x6400_S1024 : S1024x6400.Reduces [1] S1024
  shapeCasts_S1024_S1024x1 : S1024.ShapeCasts S1024x1
  shapeCasts_S1024x1_S1x1024x1 : S1024x1.ShapeCasts S1x1024x1
  reduces_S1x1024x1_S1 : S1x1024x1.Reduces [1, 2] S1
  shapeCasts_S1_S1x1x1 : S1.ShapeCasts S1x1x1
  inpos_S1x1x1_p0_0_0 : ∀ a, (![0, 0, 0] : Fin 3 → Nat) a < S1x1x1.size a
  natLt_1_32 : 1 < 32
  inb_S1x1x1_S1x1x1_0_0_0 : ∀ a, (![0, 0, 0] : Fin 3 → Nat) a + S1x1x1.size a ≤ S1x1x1.size a
  h_S1x1x1 : 0 < S1x1x1.numel
  reducesTo_S8x1x1_S_d0_1_2 : S8x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x6400.size a ≤ S8192x32000.size a
  hwx0_0 : ∀ i : grid0.Coords, EltTy.bits .f32 = 32 ∨ (Rect.block (s := S8192x32000) S1024x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .i32 = 32 ∨ (Rect.block (s := S8192x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S8x1x1.size a
  hwx0_2 : ∀ i : grid0.Coords, EltTy.bits .f32 = 32 ∨ (Rect.block (s := S8x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S8x1x1.size a
  hwx0_3 : ∀ i : grid0.Coords, EltTy.bits .f32 = 32 ∨ (Rect.block (s := S8x1x1) S1x1x1.size (cc0_transform_3 i) (hinb0_3 i)).WholeWords (EltTy.packing .f32)

variable [Facts₀]

abbrev win0_0 : Pipeline.Window sig grid0 :=
  Pipeline.Window.ofSpec (Memref.whole main_v0) S1024x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x512x32000 : Shape := ⟨3, ![16, 512, 32000]⟩
abbrev S16x512 : Shape := ⟨2, ![16, 512]⟩
abbrev S16x512x1 : Shape := ⟨3, ![16, 512, 1]⟩
abbrev S_ : Shape := ⟨0, ![]⟩
abbrev S16x512x1x1 : Shape := ⟨4, ![16, 512, 1, 1]⟩
abbrev S1 : Shape := ⟨1, ![1]⟩
abbrev S1x1x1x1 : Shape := ⟨4, ![1, 1, 1, 1]⟩

abbrev nBuf : Space → Nat
  | .hbm => 42
  | .vmem => 0
  | .smem => 0
  | _ => 0

abbrev bufTy : (tb : Table) → Fin (tcTables nBuf tb) → BufTy
  | .hbm, ⟨0, _⟩ => ⟨S16x512x32000, .f32⟩
  | .hbm, ⟨1, _⟩ => ⟨S16x512, .i32⟩
  | .hbm, ⟨2, _⟩ => ⟨S16x512x1, .i32⟩
  | .hbm, ⟨3, _⟩ => ⟨S_, .i32⟩
  | .hbm, ⟨4, _⟩ => ⟨S16x512x1, .i32⟩
  | .hbm, ⟨5, _⟩ => ⟨S16x512x1, .i1⟩
  | .hbm, ⟨6, _⟩ => ⟨S_, .i32⟩
  | .hbm, ⟨7, _⟩ => ⟨S16x512x1, .i32⟩
  | .hbm, ⟨8, _⟩ => ⟨S16x512x1, .i32⟩
  | .hbm, ⟨9, _⟩ => ⟨S16x512x1, .i32⟩
  | .hbm, ⟨10, _⟩ => ⟨S16x512x1x1, .i32⟩
  | .hbm, ⟨11, _⟩ => ⟨S1, .i32⟩
  | .hbm, ⟨12, _⟩ => ⟨S_, .i32⟩
  | .hbm, ⟨13, _⟩ => ⟨S16x512x1x1, .i32⟩
  | .hbm, ⟨14, _⟩ => ⟨S16x512x1x1, .i1⟩
  | .hbm, ⟨15, _⟩ => ⟨S1x1x1x1, .i32⟩
  | .hbm, ⟨16, _⟩ => ⟨S16x512x1x1, .i32⟩
  | .hbm, ⟨17, _⟩ => ⟨S16x512x1x1, .i1⟩
  | .hbm, ⟨18, _⟩ => ⟨S16x512x1x1, .i1⟩
  | .hbm, ⟨19, _⟩ => ⟨S_, .i1⟩
  | .hbm, ⟨20, _⟩ => ⟨S16x512x1, .i1⟩
  | .hbm, ⟨21, _⟩ => ⟨S16x512x1, .f32⟩
  | .hbm, ⟨22, _⟩ => ⟨S_, .f32⟩
  | .hbm, ⟨23, _⟩ => ⟨S16x512x1, .f32⟩
  | .hbm, ⟨24, _⟩ => ⟨S16x512x1, .f32⟩
  | .hbm, ⟨25, _⟩ => ⟨S16x512, .f32⟩
  | .hbm, ⟨26, _⟩ => ⟨S_, .i32⟩
  | .hbm, ⟨27, _⟩ => ⟨S16x512, .i32⟩
  | .hbm, ⟨28, _⟩ => ⟨S16x512, .i1⟩
  | .hbm, ⟨29, _⟩ => ⟨S16x512, .f32⟩
  | .hbm, ⟨30, _⟩ => ⟨S16x512, .f32⟩
  | .hbm, ⟨31, _⟩ => ⟨S_, .f32⟩
  | .hbm, ⟨32, _⟩ => ⟨S_, .f32⟩
  | .hbm, ⟨33, _⟩ => ⟨S16x512, .f32⟩
  | .hbm, ⟨34, _⟩ => ⟨S16x512, .f32⟩
  | .hbm, ⟨35, _⟩ => ⟨S16x512, .i32⟩
  | .hbm, ⟨36, _⟩ => ⟨S_, .i32⟩
  | .hbm, ⟨37, _⟩ => ⟨S_, .i32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S16x512x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_c : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_v7 : Ref sig .tc := ⟨.hbm, 34, rfl⟩
abbrev main_v8 : Ref sig .tc := ⟨.hbm, 35, rfl⟩
abbrev main_c_0 : Ref sig .tc := ⟨.hbm, 36, rfl⟩
abbrev main_v9 : Ref sig .tc := ⟨.hbm, 37, rfl⟩
abbrev main_v10 : Ref sig .tc := ⟨.hbm, 38, rfl⟩
abbrev main_cst_1 : Ref sig .tc := ⟨.hbm, 39, rfl⟩
abbrev main_v11 : Ref sig .tc := ⟨.hbm, 40, rfl⟩
abbrev main_v12 : Ref sig .tc := ⟨.hbm, 41, rfl⟩

abbrev nD : Nat := 1
abbrev τ : Topo := Topo.v7x

variable {F : FTy → Type} [FloatOps F]

class Facts₀ : Prop where
  bcast_S16x512_S16x512x1_0_1 : S16x512.BroadcastsInDim S16x512x1 (![0, 1] : Fin 2 → Fin S16x512x1.rank)
  bcast_S_S16x512x1 : S_.BroadcastsInDim S16x512x1 (![] : Fin 0 → Fin S16x512x1.rank)
  shapeCasts_S16x512x1_S16x512x1x1 : S16x512x1.ShapeCasts S16x512x1x1
  bcast_S_S16x512x1x1 : S_.BroadcastsInDim S16x512x1x1 (![] : Fin 0 → Fin S16x512x1x1.rank)
  bcast_S1_S1x1x1x1_3 : S1.BroadcastsInDim S1x1x1x1 (![3] : Fin 1 → Fin S1x1x1x1.rank)
  bcast_S1x1x1x1_S16x512x1x1_0_1_2_3 : S1x1x1x1.BroadcastsInDim S16x512x1x1 (![0, 1, 2, 3] : Fin 4 → Fin S16x512x1x1.rank)
  reducesTo_S16x512x1x1_S16x512x1_d3 : S16x512x1x1.ReducesTo [3] S16x512x1
  h_S_ : 0 < S_.numel
  shapeCasts_S16x512x1_S16x512 : S16x512x1.ShapeCasts S16x512
  bcast_S_S16x512 : S_.BroadcastsInDim S16x512 (![] : Fin 0 → Fin S16x512.rank)
  natLt_1_32 : 1 < 32
  reducesTo_S16x512_S_d0_1 : S16x512.ReducesTo [0, 1] S_
  gather_S16x512x32000_S16x512x1x1_S16x512x1_n_2_01_01_2_3_111_wf : GatherDims.WF S16x512x32000 S16x512x1x1 S16x512x1 [] [2] [0, 1] [2] [0, 1] 3 ![1, 1, 1]

variable [Facts₀]

def gather_S16x512x32000_S16x512x1x1_S16x512x1_n_2_01_01_2_3_111 : GatherDims S16x512x32000 S16x512x1x1 S16x512x1 where
  offsetDims := []
  collapsedSliceDims := [2]
  operandBatchingDims := [0, 1]
  startIndicesBatchingDims := [0, 1]
  startIndexMap := [2]
  indexVectorDim := 3
  sliceSizes := ![1, 1, 1]
  wf := gather_S16x512x32000_S16x512x1x1_S16x512x1_n_2_01_01_2_3_111_wf

class Facts : Prop extends Facts₀ where

variable [Facts]
-- ==== Proof.KernelPieces.lean ====
/-
  What one grid point leaves behind, case by case.

  The body keeps, per row of the tile, a running sum of the picked probabilities over the column tiles.
  At a column tile it adds to the running sum the row sum of the one-hot selection; at the first column
  tile the running sum starts from the zero block, elsewhere from what the point before left. At the last
  column tile it also writes the tile's two results: the sum over the rows of the masked `0 - log` of the
  finished running sum, and the sum over the rows of the mask as floats.
-/
import proofs.«402886_j18047452578173_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First column tile: the running sum is restarted, `0 + (row sums of the selection)`. -/
theorem acc_first (c : Dev nD) (i : grid0.Coords) (arg2 : Memref sig .tc .vmem S1024x6400 .f32) (harg2 : arg2.IsWhole) (arg3 : Memref sig .tc .vmem S1024x1 .i32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1024x1 .f32) (harg6 : arg6.IsWhole) (hc0 : cond0_0 i) (hc1 : ¬cond0_1 i)
    (x0 : Vec F S1024x6400 .f32) (x1 : Vec F S1024x1 .i32) :
    sout0_A_0 c i arg2 harg2 arg3 harg3 arg4 harg4 arg5 harg5 arg6 harg6 hc0 hc1 x0 x1 = k0_pay3 i x1 x0 k0_pay1 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1024x1) hz2, View.readCov_unit_zero (S := S1024x1) _ hz2]
  simp only [View.readAt_eq_ld, harg2.read_unread, harg3.read_unread, harg6.read_unread, View.ld_unit_zero (S := S1024x1) hz2, View.ld_unit_zero (S := S1024x6400) hz2]

/-- A middle column tile: the running sum the point before left, plus this tile's row sums. -/
theorem acc_next (c : Dev nD) (i : grid0.Coords) (arg2 : Memref sig .tc .vmem S1024x6400 .f32) (harg2 : arg2.IsWhole) (arg3 : Memref sig .tc .vmem S1024x1 .i32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1024x1 .f32) (harg6 : arg6.IsWhole) (hc0 : ¬cond0_0 i) (hc1 : ¬cond0_1 i)
    (x0 : Vec F S1024x6400 .f32) (x1 : Vec F S1024x1 .i32) (xs0 : Vec F S1024x1 .f32) :
    sout0_B_0 c i arg2 harg2 arg3 harg3 arg4 harg4 arg5 harg5 arg6 harg6 hc0 hc1 x0 x1 xs0 = k0_pay3 i x1 x0 xs0 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  sl_unfold_words
  rw [View.canon_unit_zero hz2]
  simp only [View.readAt_eq_ld, harg2.read_unread, harg3.read_unread, harg6.read_unread, View.ld_unit_zero (S := S1024x1) hz2, View.ld_unit_zero (S := S1024x6400) hz2]

/-- The last column tile updates the running sum in the same way. -/
theorem acc_last (c : Dev nD) (i : grid0.Coords) (arg2 : Memref sig .tc .vmem S1024x6400 .f32) (harg2 : arg2.IsWhole) (arg3 : Memref sig .tc .vmem S1024x1 .i32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1024x1 .f32) (harg6 : arg6.IsWhole) (hc0 : ¬cond0_0 i) (hc1 : cond0_1 i)
    (x0 : Vec F S1024x6400 .f32) (x1 : Vec F S1024x1 .i32) (xs0 : Vec F S1024x1 .f32) :
    sout0_C_0 c i arg2 harg2 arg3 harg3 arg4 harg4 arg5 harg5 arg6 harg6 hc0 hc1 x0 x1 xs0 = k0_pay3 i x1 x0 xs0 := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero hz2]
  simp only [View.readAt_eq_ld, harg2.read_unread, harg3.read_unread, harg6.read_unread, View.ld_unit_zero (S := S1024x1) hz2, View.ld_unit_zero (S := S1024x6400) hz2]

/-- The last column tile's first result: the loss summed over the tile's rows, of the finished running sum. -/
theorem loss_last (c : Dev nD) (i : grid0.Coords) (arg2 : Memref sig .tc .vmem S1024x6400 .f32) (harg2 : arg2.IsWhole) (arg3 : Memref sig .tc .vmem S1024x1 .i32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1024x1 .f32) (harg6 : arg6.IsWhole) (hc0 : ¬cond0_0 i) (hc1 : cond0_1 i)
    (x0 : Vec F S1024x6400 .f32) (x1 : Vec F S1024x1 .i32) (xs0 : Vec F S1024x1 .f32) :
    out0_C_2 c i arg2 harg2 arg3 harg3 arg4 harg4 arg5 harg5 arg6 harg6 hc0 hc1 x0 x1 xs0 = k0_pay5 x1 (k0_pay3 i x1 x0 xs0) := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  rw [View.canon_unit_zero hz3]
  simp only [View.readAt_eq_ld, harg2.read_unread, harg3.read_unread, harg6.read_unread, View.ld_unit_zero (S := S1024x1) hz2, View.ld_unit_zero (S := S1024x6400) hz2, View.readCov_unit_zero (S := S1024x1) _ hz2]

/-- The last column tile's second result: the number of unmasked rows of the tile, as a float sum. -/
theorem count_last (c : Dev nD) (i : grid0.Coords) (arg2 : Memref sig .tc .vmem S1024x6400 .f32) (harg2 : arg2.IsWhole) (arg3 : Memref sig .tc .vmem S1024x1 .i32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1024x1 .f32) (harg6 : arg6.IsWhole) (hc0 : ¬cond0_0 i) (hc1 : cond0_1 i)
    (x0 : Vec F S1024x6400 .f32) (x1 : Vec F S1024x1 .i32) (xs0 : Vec F S1024x1 .f32) :
    out0_C_3 c i arg2 harg2 arg3 harg3 arg4 harg4 arg5 harg5 arg6 harg6 hc0 hc1 x0 x1 xs0 = k0_pay6 x1 := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  sl_unfold_words
  rw [View.canon_unit_zero hz3]
  simp only [View.readAt_eq_ld, harg2.read_unread, harg3.read_unread, harg6.read_unread, View.ld_unit_zero (S := S1024x1) hz2, View.ld_unit_zero (S := S1024x6400) hz2]

end Cert.KernelIdeal.Pieces

end
-- ==== Proof.KernelAcc.lean ====
/-
  The running sum, point by point.

  The grid walks the eight row tiles in order and, inside a row tile, the five column tiles in order, so point
  `n` is column tile `n % 5` of row tile `n / 5`. The scratch after point `n` is the fold of the per-point update
  over the points of its row tile so far: restarted from the zero block when `n % 5 = 0`, continued from the
  scratch after point `n - 1` otherwise. At the points with `n % 5 = 4` the two results are computed from that
  scratch and from the tile's labels.
-/
import proofs.«402886_j18047452578173_2_alg».proof.Proof.KernelPieces

noncomputable section

open Idealize.ShloMosaic Idealize.ShloMosaic.TcCoe Idealize.SL.Sem

namespace Cert.KernelIdeal.Acc

open Cert.KernelIdeal Cert.KernelIdeal.Gen Cert.KernelIdeal.Pieces

variable {F : FTy → Type} [FloatOps F]
variable (m : (ℓ : Loc nD τ sig) → Buf (Elt F) ℓ)

/-- The block of probabilities point `t` reads: 1024 rows by 6400 columns. -/
abbrev pblk (c : Dev nD) (t : Fin cfg0.N) : Vec F S1024x6400 .f32 := iblk m c 0 t
/-- The block of labels point `t` reads: 1024 rows. -/
abbrev lblk (c : Dev nD) (t : Fin cfg0.N) : Vec F S1024x1 .i32 := iblk m c 1 t

/-- The running sum after point `n`. -/
def acc (c : Dev nD) : (n : ℕ) → n < cfg0.N → Vec F S1024x1 .f32
  | 0, h => k0_pay3 (grid0.coords ⟨0, h⟩) (lblk m c ⟨0, h⟩) (pblk m c ⟨0, h⟩) k0_pay1
  | n + 1, h => k0_pay3 (grid0.coords ⟨n + 1, h⟩) (lblk m c ⟨n + 1, h⟩) (pblk m c ⟨n + 1, h⟩)
      (if (n + 1) % 5 = 0 then k0_pay1 else acc c n (Nat.lt_of_succ_lt h))

/-- The scratch after each point is the running sum. -/
theorem scratch_eq (c : Dev nD) : ∀ (n : ℕ) (h : n < cfg0.N), (outsAt0 m c n h).2.2 = acc m c n h
  | 0, h => by
    rw [outsAt0_A m c ⟨0, h⟩ rfl (by show ¬(0 % 5 = 4); decide)]
    dsimp only
    exact acc_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) _ _ (iblk m c 0 ⟨0, h⟩) (iblk m c 1 ⟨0, h⟩)
  | n + 1, h => by
    have ih := scratch_eq c n (Nat.lt_of_succ_lt h)
    by_cases h0 : (n + 1) % 5 = 0
    · have h1 : ¬(n + 1) % 5 = 4 := by omega
      rw [outsAt0_A m c ⟨n + 1, h⟩ h0 h1]
      dsimp only
      rw [acc_first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩)]
      simp only [acc, if_pos h0]
    · by_cases h1 : (n + 1) % 5 = 4
      · rw [outsAt0_C m c ⟨n + 1, h⟩ h0 h1]
        dsimp only
        rw [acc_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) _]
        show k0_pay3 _ _ _ (outsAt0 m c n _).2.2 = _
        rw [ih]
        simp only [acc, if_neg h0]
      · rw [outsAt0_B m c ⟨n + 1, h⟩ h0 h1]
        dsimp only
        rw [acc_next c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) _]
        show k0_pay3 _ _ _ (outsAt0 m c n _).2.2 = _
        rw [ih]
        simp only [acc, if_neg h0]

/-- At a last column tile the first result is the tile's summed loss of the running sum. -/
theorem loss_eq (c : Dev nD) (t : Fin cfg0.N) (h1 : t.val % 5 = 4) :
    (outsAt0 m c t.val t.isLt).1 = k0_pay5 (lblk m c t) (acc m c t.val t.isLt) := by
  have h0 : ¬t.val % 5 = 0 := by omega
  rw [← scratch_eq m c t.val t.isLt, outsAt0_C m c t h0 h1]
  dsimp only
  rw [loss_last c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) _,
    acc_last c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) _]

/-- At a last column tile the second result is the tile's count of unmasked rows. -/
theorem count_eq (c : Dev nD) (t : Fin cfg0.N) (h1 : t.val % 5 = 4) :
    (outsAt0 m c t.val t.isLt).2.1 = k0_pay6 (lblk m c t) := by
  have h0 : ¬t.val % 5 = 0 := by omega
  rw [outsAt0_C m c t h0 h1]
  dsimp only
  exact count_last c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) _

end Cert.KernelIdeal.Acc

end
-- ==== Proof.KernelPay.lean ====
/-
  The body's three computations, read at an index over the extended reals.

  For a tile of 1024 rows: the update adds to each row's running sum the sum, over the 6400 columns of the block, of
  the block's entry where the column's number equals the row's label minus the block's first column, and of zero
  elsewhere; the loss result is the sum over the rows of `0 - log` of the running sum where the label is not zero,
  and of zero elsewhere; the count result is the sum over the rows of one where the label is not zero, and of zero
  elsewhere.
-/
import proofs.«402886_j18047452578173_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Pay

open Cert.KernelIdeal Cert.KernelIdeal.Gen

/-- A selection on an equality test of two words is a choice on the equality. -/
theorem select_cmpi_eq {α : Type} (x y : BitVec 32) (a b : α) :
    Scalar.select (IntOp.cmpi .eq x y) a b = if x = y then a else b := by
  unfold Scalar.select IntOp.cmpi
  by_cases h : x = y
  · subst h; simp
  · have hb : (x == y) = false := by simpa using h
    simp [hb, h]

/-- A selection on an inequality test of two words is the opposite choice on the equality. -/
theorem select_cmpi_ne {α : Type} (x y : BitVec 32) (a b : α) :
    Scalar.select (IntOp.cmpi .ne x y) a b = if x = y then b else a := by
  unfold Scalar.select IntOp.cmpi
  by_cases h : x = y
  · subst h; simp
  · have hb : (x != y) = true := by simpa using h
    simp [hb, h]

/-- A vector of 1024 entries viewed as a column reads row `r` at `r`. -/
theorem column_apply {α : Type} (x : S1024.Idx → α) (r : Fin 1024) (z : Fin 1) :
    shapeCast S1024x1 x shapeCasts_S1024_S1024x1 (ix2 r z) = x (ix1 r) :=
  shapeCast_apply x shapeCasts_S1024_S1024x1 (ix2 r z) (ix1 r) (by
    have hz : z.val = 0 := by omega
    rw [Shape.rowMajor_val_one, Shape.rowMajor_val_two]
    show r.val = r.val * 1 + z.val
    omega)

/-- A column broadcast along the 6400 columns reads, at `(r, k)`, the column's row `r`. -/
theorem spread_apply {α : Type} (x : S1024x1.Idx → α) (r : Fin 1024) (k : Fin 6400) :
    broadcastTo S1024x6400 x broadcasts_S1024x1_S1024x6400 (ix2 r k) = x (ix2 r (0 : Fin 1)) := by
  refine broadcastTo_apply x broadcasts_S1024x1_S1024x6400 (ix2 r k) (ix2 r (0 : Fin 1)) fun ax => ?_
  match ax with
  | ⟨0, _⟩ =>
    show r.val = if (1024 : Nat) = 1 then 0 else r.val
    rw [if_neg (by decide)]
  | ⟨1, _⟩ => rfl

/-- The rows of a `[1, 1024, 1]` array are its indices. -/
def rowsEquiv : Fin 1024 ≃ S1x1024x1.Idx where
  toFun r := ix3 (0 : Fin 1) r (0 : Fin 1)
  invFun i := i 1
  left_inv _ := rfl
  right_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)

/-- A lane sum of a block, from the zero accumulator, at row `r`: the sum of the row's 6400 entries. -/
theorem rowSum_apply (src : FVec Ideal S1024x6400 .f32) (hφ : FKind.Formats FTy.f32)
    (hacc : (0x00000000#32 : BitVec 32) = 0x00000000#32) (r : Fin 1024) :
    multiReduction .add [1] S1024 src 0x00000000#32 reduces_S1024x6400_S1024 hφ hacc (ix1 r) = ∑ k : Fin 6400, src (ix2 r k) :=
  (Ideal.multiReduction_add_single src 0x00000000#32 reduces_S1024x6400_S1024 hφ hacc (ix1 r)).trans
    (Finset.sum_congr rfl fun k _ => congrArg src (funext fun a => match a with
      | ⟨0, _⟩ => rfl
      | ⟨1, _⟩ => rfl))

/-- The update of the running sum at row `r`. -/
theorem pay3_apply (i : grid0.Coords) (v4 : Vec Ideal S1024x1 .i32) (v12 : Vec Ideal S1024x6400 .f32) (v16 : Vec Ideal S1024x1 .f32)
    (r : Fin 1024) (z : Fin 1) :
    k0_pay3 (F := Ideal) i v4 v12 v16 (ix2 r z)
      = v16 (ix2 r z) + ∑ k : Fin 6400,
          (if BitVec.ofNat 32 k.val = v4 (ix2 r (0 : Fin 1)) - BitVec.ofNat 32 (i 1).val * 6400#32 then v12 (ix2 r k) else (0 : EReal)) := by
  unfold k0_pay3 k0_pay2
  simp only [shapeCast_self]
  rw [addf_apply, column_apply]
  refine congrArg (v16 (ix2 r z) + ·) ((rowSum_apply _ _ _ r).trans (Finset.sum_congr rfl fun k _ => ?_))
  show Scalar.select (IntOp.cmpi .eq
      (broadcastTo S1024x6400 (iota Kind.tc S1x6400 32 [1] iota_S1x6400_d1_w32) broadcasts_S1x6400_S1024x6400 (ix2 r k))
      (broadcastTo S1024x6400 (subi v4 (broadcast S1024x1 (Scalar.muli (BitVec.ofNat 32 (i 1).val) 6400#32))) broadcasts_S1024x1_S1024x6400 (ix2 r k)))
      (v12 (ix2 r k)) (Ideal.ofBits .f32 0#32) = _
  rw [broadcastTo_1b_ab_apply, iota_single_apply, spread_apply, select_cmpi_eq, Ideal.ofBits_zero_f32]
  rfl

/-- A sum over both long axes of a `[1, 1024, 1]` view, from the zero accumulator: the sum over the 1024 rows. -/
theorem total_apply (src : FVec Ideal S1x1024x1 .f32) (hφ : FKind.Formats FTy.f32)
    (hacc : (0x00000000#32 : BitVec 32) = 0x00000000#32) (j : S1.Idx) :
    multiReduction .add [1, 2] S1 src 0x00000000#32 reduces_S1x1024x1_S1 hφ hacc j
      = ∑ r : Fin 1024, src (ix3 (0 : Fin 1) r (0 : Fin 1)) :=
  (Ideal.multiReduction_add_total src 0x00000000#32 reduces_S1x1024x1_S1 (fun b => match b with | ⟨0, _⟩ => rfl) hφ hacc j).trans
    (Equiv.sum_comp rowsEquiv src).symm

/-- The one entry of a `[1]` vector viewed as `[1, 1, 1]`. -/
theorem single_apply {α : Type} (x : S1.Idx → α) (y : S1x1x1.Idx) :
    shapeCast S1x1x1 x shapeCasts_S1_S1x1x1 y = x (ix1 (0 : Fin 1)) :=
  shapeCast_apply x shapeCasts_S1_S1x1x1 y (ix1 (0 : Fin 1)) (by
    have h0 : (y 0).val < 1 := (y 0).isLt
    have h1 : (y 1).val < 1 := (y 1).isLt
    have h2 : (y 2).val < 1 := (y 2).isLt
    rw [Shape.rowMajor_val_one, Shape.rowMajor_val_three]
    show 0 = ((y 0).val * 1 + (y 1).val) * 1 + (y 2).val
    omega)

/-- The tile's loss result: over the rows, `0 - log` of the running sum where the label is not zero. -/
theorem pay5_apply (v4 : Vec Ideal S1024x1 .i32) (v26 : Vec Ideal S1024x1 .f32) (y : S1x1x1.Idx) :
    k0_pay5 (F := Ideal) v4 v26 y
      = ∑ r : Fin 1024, (if v4 (ix2 r (0 : Fin 1)) = 0#32 then (0 : EReal) else 0 - Ideal.log (v26 (ix2 r (0 : Fin 1)))) := by
  unfold k0_pay5 k0_pay4 k0_pay2
  simp only [shapeCast_self]
  rw [broadcast_apply]
  unfold extractAt
  rw [single_apply]
  refine (total_apply _ _ _ _).trans (Finset.sum_congr rfl fun r _ => ?_)
  rw [shapeCast_ab_1ab_apply]
  show Scalar.select (IntOp.cmpi .ne (v4 (ix2 r (0 : Fin 1))) 0#32)
      (Ideal.ofBits .f32 0#32 - Ideal.log (v26 (ix2 r (0 : Fin 1)))) (Ideal.ofBits .f32 0#32) = _
  rw [select_cmpi_ne, Ideal.ofBits_zero_f32]

/-- The tile's count result: over the rows, one where the label is not zero. -/
theorem pay6_apply (v4 : Vec Ideal S1024x1 .i32) (y : S1x1x1.Idx) :
    k0_pay6 (F := Ideal) v4 y = ∑ r : Fin 1024, (if v4 (ix2 r (0 : Fin 1)) = 0#32 then (0 : EReal) else 1) := by
  unfold k0_pay6 k0_pay4 k0_pay2
  simp only [shapeCast_self]
  rw [broadcast_apply]
  unfold extractAt
  rw [single_apply]
  refine (total_apply _ _ _ _).trans (Finset.sum_congr rfl fun r _ => ?_)
  rw [shapeCast_ab_1ab_apply]
  show (((IntOp.cmpi .ne (v4 (ix2 r (0 : Fin 1))) 0#32).setWidth 32).toInt : ℝ) = (_ : EReal)
  by_cases h : v4 (ix2 r (0 : Fin 1)) = 0#32
  · rw [if_pos h, h]; simp [IntOp.cmpi]
  · rw [if_neg h]
    have hb : (v4 (ix2 r (0 : Fin 1)) != 0#32) = true := by simpa using h
    simp [IntOp.cmpi, hb]

end Cert.KernelIdeal.Pay

end
-- ==== Proof.Pick.lean ====
/-
  A one-hot selection, summed tile by tile, picks one entry.

  Fix a row `a : ℕ → EReal` and a label `t`, a 32-bit word whose value is below 32000. Column tile `v` (of five,
  6400 columns each) contributes the sum over its columns `k` of `a (6400 v + k)` where the word `k` equals the
  word `t - 6400 v`, and of zero elsewhere. Because every number in sight is far below `2 ^ 32`, the words are
  equal exactly when `6400 v + k = t` as numbers; so tile `v` contributes `a t` when `t` falls in its range and
  zero otherwise, and the five contributions, added to zero one after the other, give `a t`. Zero is neutral for
  the addition of extended reals, so nothing is assumed of the entries.
-/
import Idealize.ShloMosaic.PureOps.Ideal

noncomputable section

namespace Cert.Nll

/-- The two words are equal exactly when the column's number is the label. -/
theorem word_eq_iff (t : BitVec 32) (v k : ℕ) (ht : t.toNat < 32000) (hv : v ≤ 4) (hk : k < 6400) :
    BitVec.ofNat 32 k = t - BitVec.ofNat 32 v * 6400#32 ↔ 6400 * v + k = t.toNat := by
  constructor
  · intro he
    have h := congrArg BitVec.toNat he
    simp only [BitVec.toNat_sub, BitVec.toNat_mul, BitVec.toNat_ofNat] at h
    norm_num at h
    omega
  · intro he
    apply BitVec.eq_of_toNat_eq
    simp only [BitVec.toNat_sub, BitVec.toNat_mul, BitVec.toNat_ofNat]
    norm_num
    omega

/-- Column tile `v`'s share of the one-hot sum. -/
def share (a : ℕ → EReal) (t : BitVec 32) (v : ℕ) : EReal :=
  ∑ k : Fin 6400, if BitVec.ofNat 32 k.val = t - BitVec.ofNat 32 v * 6400#32 then a (6400 * v + k.val) else 0

/-- The running sum after column tile `v`, started from zero. -/
def upto (a : ℕ → EReal) (t : BitVec 32) : ℕ → EReal
  | 0 => 0 + share a t 0
  | v + 1 => upto a t v + share a t (v + 1)

/-- A tile's share is the picked entry when the label falls in the tile, and zero otherwise. -/
theorem share_eq (a : ℕ → EReal) (t : BitVec 32) (ht : t.toNat < 32000) (v : ℕ) (hv : v ≤ 4) :
    share a t v = if 6400 * v ≤ t.toNat ∧ t.toNat < 6400 * v + 6400 then a t.toNat else 0 := by
  unfold share
  by_cases hin : 6400 * v ≤ t.toNat ∧ t.toNat < 6400 * v + 6400
  · rw [if_pos hin, Finset.sum_eq_single (⟨t.toNat - 6400 * v, by omega⟩ : Fin 6400)]
    · rw [if_pos ((word_eq_iff t v _ ht hv (by show t.toNat - 6400 * v < 6400; omega)).mpr
        (by show 6400 * v + (t.toNat - 6400 * v) = t.toNat; omega))]
      congr 1
      show 6400 * v + (t.toNat - 6400 * v) = t.toNat
      omega
    · intro k _ hne
      rw [if_neg]
      intro he
      have := (word_eq_iff t v k.val ht hv k.isLt).mp he
      exact hne (Fin.ext (by show k.val = t.toNat - 6400 * v; omega))
    · intro h
      exact absurd (Finset.mem_univ _) h
  · rw [if_neg hin]
    refine Finset.sum_eq_zero fun k _ => ?_
    rw [if_neg]
    intro he
    have := (word_eq_iff t v k.val ht hv k.isLt).mp he
    have := k.isLt
    omega

/-- After the fifth tile the running sum is the picked entry. -/
theorem upto_four (a : ℕ → EReal) (t : BitVec 32) (ht : t.toNat < 32000) : upto a t 4 = a t.toNat := by
  simp only [upto]
  rw [share_eq a t ht 0 (by omega), share_eq a t ht 1 (by omega), share_eq a t ht 2 (by omega),
    share_eq a t ht 3 (by omega), share_eq a t ht 4 (by omega)]
  split_ifs <;> first | (exfalso; omega) | simp

end Cert.Nll

end
-- ==== Proof.Spec.lean ====
/-
  The masked negative log-likelihood, as one function of the two argument arrays read by flat rows.

  A row `r` (one of the 16 · 512 = 8192 positions) has a label `T r`, a 32-bit word, and a row of probabilities
  `A r k`. The picked probability is `A r (T r)`; the row's loss is `-log` of it when the label is not the
  padding label `0`, and `0` otherwise; its weight is `1` when the label is not `0`, and `0` otherwise. The
  result is the sum of the losses divided by the sum of the weights, over the extended reals.

  Two ways of walking the rows meet here: sixteen groups of 512 rows (the arrays' own layout) and eight tiles of
  1024 rows (the grid's). A sum over either is the sum over all rows, because addition of extended reals is
  commutative and associative; no finiteness is used.

  The picked probability is also what a one-hot selection sums to: over five column tiles of 6400 columns, the
  terms `A r (6400 v + j)` kept where the word `j` equals the word `T r - 6400 v`, and `0` elsewhere. When the
  label is a column number below 32000 exactly one term is kept, at `6400 v + j = T r`, and adding zeros changes
  nothing. Outside that range no term is kept, which is why the statement carries the range as a precondition.
-/
import Idealize.ShloMosaic.PureOps.Ideal
import Idealize.ShloMosaic.Lib.ValueIdx

noncomputable section

namespace Cert.Nll

open Idealize.ShloMosaic

/-- A row's loss from its picked probability `p` and its label `t`. -/
def loss (p : EReal) (t : BitVec 32) : EReal := if t = 0#32 then 0 else -(Ideal.log p)

/-- A row's weight: one unless the label is the padding label. -/
def weight (t : BitVec 32) : EReal := if t = 0#32 then 0 else 1

/-- The mean loss over the unmasked rows, from the probabilities `A` and the labels `T` by flat rows. -/
def result (A : Fin 8192 → ℕ → EReal) (T : Fin 8192 → BitVec 32) : EReal :=
  Ideal.div (∑ r, loss (A r (T r).toNat) (T r)) (∑ r, weight (T r))

/-- Row `s` of group `b`, of sixteen groups of 512. -/
def rowOfGroup (b : Fin 16) (s : Fin 512) : Fin 8192 := ⟨512 * b.val + s.val, by omega⟩

/-- Row `r` of tile `a`, of eight tiles of 1024. -/
def rowOfTile (a : Fin 8) (r : Fin 1024) : Fin 8192 := ⟨1024 * a.val + r.val, by omega⟩

/-- Summing group by group is summing over all rows. -/
theorem sum_groups {M : Type*} [AddCommMonoid M] (f : Fin 8192 → M) :
    ∑ b : Fin 16, ∑ s : Fin 512, f (rowOfGroup b s) = ∑ r, f r := by
  rw [← Fintype.sum_prod_type']
  exact Fintype.sum_equiv (finProdFinEquiv (m := 16) (n := 512)) _ _ (fun x => by
    congr 1; apply Fin.ext; simp [rowOfGroup, finProdFinEquiv]; omega)

/-- Summing tile by tile is summing over all rows. -/
theorem sum_tiles {M : Type*} [AddCommMonoid M] (f : Fin 8192 → M) :
    ∑ a : Fin 8, ∑ r : Fin 1024, f (rowOfTile a r) = ∑ r, f r := by
  rw [← Fintype.sum_prod_type']
  exact Fintype.sum_equiv (finProdFinEquiv (m := 8) (n := 1024)) _ _ (fun x => by
    congr 1; apply Fin.ext; simp [rowOfTile, finProdFinEquiv]; omega)

end Cert.Nll

end
-- ==== Proof.KernelValue.lean ====
/-
  The running sum in closed form.

  Point `t` of the grid is column tile `t % 5` of row tile `t / 5`: it reads rows `1024 (t / 5) + r` of the label
  column and, of the probabilities, the same rows at columns `6400 (t % 5) + k`. So one point's update adds to
  row `r`'s running sum that column tile's share of the one-hot sum for the flat row `1024 (t / 5) + r`, and the
  running sum after point `n` is the sum of the shares of the column tiles `0 … n % 5` of that row.
-/
import proofs.«402886_j18047452578173_2_alg».proof.Proof.KernelAcc
import proofs.«402886_j18047452578173_2_alg».proof.Proof.KernelPay
import proofs.«402886_j18047452578173_2_alg».proof.Proof.Pick
import proofs.«402886_j18047452578173_2_alg».proof.Proof.Spec

noncomputable section

open Idealize.ShloMosaic Idealize.ShloMosaic.TcCoe Idealize.SL.Sem Idealize.ShloMosaic.ValueIdx

namespace Cert.KernelIdeal.KValue

open Cert.KernelIdeal Cert.KernelIdeal.Gen Cert.KernelIdeal.Acc Cert.KernelIdeal.Pay Cert.Nll

variable (m : (ℓ : Loc nD τ sig) → Buf (Elt Ideal) ℓ)

/-- The probabilities as the region finds them: 8192 rows of 32000. -/
abbrev parr (c : Dev nD) : Vec Ideal S8192x32000 .f32 := V m c main_v0
/-- The labels as the region finds them: a column of 8192. -/
abbrev larr (c : Dev nD) : Vec Ideal S8192x1 .i32 := V m c main_v1

/-- The probabilities by flat rows; columns past the last are `0`. -/
def rowsA (c : Dev nD) : Fin 8192 → ℕ → EReal :=
  fun r k => if h : k < 32000 then parr m c (ix2 r (⟨k, h⟩ : Fin 32000)) else 0
/-- The labels by flat rows. -/
def rowsT (c : Dev nD) : Fin 8192 → BitVec 32 := fun r => larr m c (ix2 r (0 : Fin 1))

/-- The printed index maps over the grid: every window's block row is the point's row tile, the probabilities'
    block column its column tile, and the second grid coordinate is the column tile. -/
theorem idx_facts : ∀ t : Fin cfg0.N,
    win0_0.index t (0 : Fin 2) = t.val / 5 ∧ win0_0.index t (1 : Fin 2) = t.val % 5
    ∧ win0_1.index t (0 : Fin 2) = t.val / 5 ∧ win0_1.index t (1 : Fin 2) = 0
    ∧ win0_2.index t (0 : Fin 3) = t.val / 5 ∧ win0_2.index t (1 : Fin 3) = 0 ∧ win0_2.index t (2 : Fin 3) = 0
    ∧ win0_3.index t (0 : Fin 3) = t.val / 5 ∧ win0_3.index t (1 : Fin 3) = 0 ∧ win0_3.index t (2 : Fin 3) = 0
    ∧ ((grid0.coords t) 1).val = t.val % 5 :=
  (by decide +kernel : ∀ t : Fin grid0.N, _)

/-- The row tile of a point. -/
def tileOf (n : ℕ) (h : n < cfg0.N) : Fin 8 := ⟨n / 5, by have hN : cfg0.N = 40 := N_0; omega⟩

/-- The flat row that row `r` of point `n`'s blocks is. -/
def rowAt (n : ℕ) (h : n < cfg0.N) (r : Fin 1024) : Fin 8192 := rowOfTile (tileOf n h) r

/-- The label block at a point reads the flat row's label. -/
theorem lblk_apply (c : Dev nD) (t : Fin cfg0.N) (r : Fin 1024) (z : Fin 1) :
    lblk m c t (ix2 r z) = rowsT m c (rowAt t.val t.isLt r) := by
  obtain ⟨-, -, e2, e3, -⟩ := idx_facts t
  unfold lblk iblk rowsT larr
  rw [View.read_apply]
  show V m c main_v1 _ = V m c main_v1 _
  refine congrArg (V m c main_v1) (funext fun a => Fin.ext ?_)
  have hz : z.val = 0 := by omega
  match a with
  | ⟨0, _⟩ =>
    show win0_1.index t (0 : Fin 2) * 1024 + 1 * r.val = 1024 * (t.val / 5) + r.val
    rw [e2]; omega
  | ⟨1, _⟩ =>
    show win0_1.index t (1 : Fin 2) * 1 + 1 * z.val = 0
    rw [e3, hz]

/-- The probability block at a point reads the flat row at the column tile's columns. -/
theorem pblk_apply (c : Dev nD) (t : Fin cfg0.N) (r : Fin 1024) (k : Fin 6400) :
    pblk m c t (ix2 r k) = rowsA m c (rowAt t.val t.isLt r) (6400 * (t.val % 5) + k.val) := by
  obtain ⟨e0, e1, -⟩ := idx_facts t
  have hk : 6400 * (t.val % 5) + k.val < 32000 := by have := k.isLt; omega
  unfold rowsA
  rw [dif_pos hk]
  unfold pblk iblk parr
  rw [View.read_apply]
  show V m c main_v0 _ = V m c main_v0 _
  refine congrArg (V m c main_v0) (funext fun a => Fin.ext ?_)
  match a with
  | ⟨0, _⟩ =>
    show win0_0.index t (0 : Fin 2) * 1024 + 1 * r.val = 1024 * (t.val / 5) + r.val
    rw [e0]; omega
  | ⟨1, _⟩ =>
    show win0_0.index t (1 : Fin 2) * 6400 + 1 * k.val = 6400 * (t.val % 5) + k.val
    rw [e1]; omega

/-- The zero block is zero at every row. -/
theorem zero_apply (r : Fin 1024) (z : Fin 1) : (k0_pay1 (F := Ideal)) (ix2 r z) = 0 := by
  unfold k0_pay1
  simp only [shapeCast_self]
  exact Ideal.ofBits_zero_f32

/-- One point's update, at row `r`: the running sum so far plus the point's column tile's share. -/
theorem step_apply (c : Dev nD) (t : Fin cfg0.N) (prev : Vec Ideal S1024x1 .f32) (r : Fin 1024) (z : Fin 1) :
    k0_pay3 (F := Ideal) (grid0.coords t) (lblk m c t) (pblk m c t) prev (ix2 r z)
      = prev (ix2 r z) + share (rowsA m c (rowAt t.val t.isLt r)) (rowsT m c (rowAt t.val t.isLt r)) (t.val % 5) := by
  obtain ⟨-, -, -, -, -, -, -, -, -, -, e10⟩ := idx_facts t
  rw [pay3_apply, lblk_apply, e10]
  unfold share
  refine congrArg (prev (ix2 r z) + ·) (Finset.sum_congr rfl fun k _ => ?_)
  rw [pblk_apply]

/-- The running sum after point `n`, at row `r`: the shares of the column tiles so far. -/
theorem acc_apply (c : Dev nD) : ∀ (n : ℕ) (h : n < cfg0.N) (r : Fin 1024) (z : Fin 1),
    acc m c n h (ix2 r z) = upto (rowsA m c (rowAt n h r)) (rowsT m c (rowAt n h r)) (n % 5)
  | 0, h, r, z => by
    simp only [acc]
    rw [step_apply m c ⟨0, h⟩ _ r z, zero_apply]
    rfl
  | n + 1, h, r, z => by
    have hN : cfg0.N = 40 := N_0
    simp only [acc]
    rw [step_apply m c ⟨n + 1, h⟩ _ r z]
    by_cases h0 : (n + 1) % 5 = 0
    · rw [if_pos h0, zero_apply]
      show 0 + share _ _ ((n + 1) % 5) = upto _ _ ((n + 1) % 5)
      rw [h0]
      rfl
    · rw [if_neg h0, acc_apply c n (Nat.lt_of_succ_lt h) r z]
      have hrow : rowAt n (Nat.lt_of_succ_lt h) r = rowAt (n + 1) h r :=
        Fin.ext (by show 1024 * (n / 5) + r.val = 1024 * ((n + 1) / 5) + r.val; omega)
      have hv : (n + 1) % 5 = n % 5 + 1 := by omega
      show upto _ _ (n % 5) + share _ _ ((n + 1) % 5) = upto _ _ ((n + 1) % 5)
      rw [hrow, hv]
      rfl

end Cert.KernelIdeal.KValue

end
-- ==== Proof.KernelArrays.lean ====
/-
  The two result arrays after the run.

  Each has one entry per row tile. The entry of row tile `a` is written once, by the tile's last point `5 a + 4`,
  from the finished running sum: the sum over the tile's 1024 rows of the masked `0 - log` of the row's running sum
  after the fifth column tile, and the sum over the rows of the mask as zeros and ones.
-/
import proofs.«402886_j18047452578173_2_alg».proof.Proof.KernelValue

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Acc Cert.KernelIdeal.Pay Cert.Nll

variable (m : (ℓ : Loc nD τ sig) → Buf (Elt Ideal) ℓ)

/-- Row tile `a`'s summed loss. -/
def tileLoss (c : Dev nD) (a : Fin 8) : EReal :=
  ∑ r : Fin 1024, (if rowsT m c (rowOfTile a r) = 0#32 then (0 : EReal)
    else 0 - Ideal.log (upto (rowsA m c (rowOfTile a r)) (rowsT m c (rowOfTile a r)) 4))

/-- Row tile `a`'s number of unmasked rows. -/
def tileCount (c : Dev nD) (a : Fin 8) : EReal :=
  ∑ r : Fin 1024, (if rowsT m c (rowOfTile a r) = 0#32 then (0 : EReal) else 1)

/-- The array of the tiles' losses. -/
def lossArr (c : Dev nD) : Vec Ideal S8x1x1 .f32 := fun i => tileLoss m c ⟨(i 0).val, (i 0).isLt⟩
/-- The array of the tiles' counts. -/
def countArr (c : Dev nD) : Vec Ideal S8x1x1 .f32 := fun i => tileCount m c ⟨(i 0).val, (i 0).isLt⟩

/-- A tile's last point leaves the tile's summed loss. -/
theorem loss_at (c : Dev nD) (t : Fin cfg0.N) (h4 : t.val % 5 = 4) (y : S1x1x1.Idx) :
    (outsAt0 m c t.val t.isLt).1 y = tileLoss m c (tileOf t.val t.isLt) := by
  rw [loss_eq m c t h4, pay5_apply]
  unfold tileLoss
  refine Finset.sum_congr rfl fun r _ => ?_
  rw [lblk_apply, acc_apply, h4]
  rfl

/-- A tile's last point leaves the tile's count. -/
theorem count_at (c : Dev nD) (t : Fin cfg0.N) (h4 : t.val % 5 = 4) (y : S1x1x1.Idx) :
    (outsAt0 m c t.val t.isLt).2.1 y = tileCount m c (tileOf t.val t.isLt) := by
  rw [count_eq m c t h4, pay6_apply]
  unfold tileCount
  refine Finset.sum_congr rfl fun r _ => ?_
  rw [lblk_apply]
  rfl

/-- What a writing point writes back into window 2 is its block of the loss array. -/
theorem flushed2_eq (c : Dev nD) (t : Fin cfg0.N) (hf : (cfg0.win 2).flush t = true) :
    (dats m 0 c).flushed 2 t = ((cfg0.win 2).blk t).view.read (Elt Ideal) (lossArr m c) := by
  have h4 : t.val % 5 = 4 := (flush0_2 t).mp hf
  obtain ⟨-, -, -, -, e4, -, -, e7, -⟩ := idx_facts t
  show (cfg0.win 2).cut (grid0.coords t) ((dats m 0 c).after 2 t) = _
  rw [after0_2]
  funext y
  rw [View.read_apply]
  show (outsAt0 m c t.val t.isLt).1 y = lossArr m c (((cfg0.win 2).blk t).view.emb y)
  rw [loss_at m c t h4 y]
  unfold lossArr
  refine congrArg (tileLoss m c) (Fin.ext ?_)
  show t.val / 5 = win0_2.index t (0 : Fin 3) * 1 + 1 * (y 0).val
  have hy : (y 0).val < 1 := (y 0).isLt
  rw [e4]; omega

/-- An index of the loss array is in point `t`'s block iff each coordinate is in the block's range. -/
theorem mem_blk2 (t : Fin cfg0.N) (i : S8x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v2_0).slice (win0_2.rect t)).set ↔ _
  rw [View.set_slice_whole, Rect.mem_set_unit]
  exact Iff.rfl

/-- Every entry of the loss array is written by the last point of its row tile. -/
theorem cover2 (i : S8x1x1.Idx) :
    ∃ t : Fin cfg0.N, (cfg0.win 2).flush t = true ∧ i ∈ ((cfg0.win 2).blk t).view.set := by
  have hN : cfg0.N = 40 := N_0
  have h0 : (i 0).val < 8 := (i 0).isLt
  have h1 : (i 1).val < 1 := (i 1).isLt
  have h2 : (i 2).val < 1 := (i 2).isLt
  have ht : 5 * (i 0).val + 4 < cfg0.N := by omega
  obtain ⟨-, -, -, -, e4, e5, e6, e7, e8, e9, -⟩ := idx_facts ⟨5 * (i 0).val + 4, ht⟩
  have hv : (⟨5 * (i 0).val + 4, ht⟩ : Fin cfg0.N).val = 5 * (i 0).val + 4 := rfl
  refine ⟨⟨5 * (i 0).val + 4, ht⟩, (flush0_2 _).mpr (by rw [hv]; omega), ?_⟩
  rw [mem_blk2]
  intro a
  match a with
  | ⟨0, _⟩ =>
    show win0_2.index _ (0 : Fin 3) * 1 ≤ (i 0).val ∧ (i 0).val < win0_2.index _ (0 : Fin 3) * 1 + 1
    rw [e4, hv]; omega
  | ⟨1, _⟩ =>
    show win0_2.index _ (1 : Fin 3) * 1 ≤ (i 1).val ∧ (i 1).val < win0_2.index _ (1 : Fin 3) * 1 + 1
    rw [e5]; omega
  | ⟨2, _⟩ =>
    show win0_2.index _ (2 : Fin 3) * 1 ≤ (i 2).val ∧ (i 2).val < win0_2.index _ (2 : Fin 3) * 1 + 1
    rw [e6]; omega

/-- The loss array after the run. -/
theorem final2 (c : Dev nD) : (dats m 0 c).arrAt 2 cfg0.N = lossArr m c :=
  (dats m 0 c).arrAt_eq_of_cover 2 (lossArr m c) (flushed2_eq m c) cover2

/-- What a writing point writes back into window 3 is its block of the count array. -/
theorem flushed3_eq (c : Dev nD) (t : Fin cfg0.N) (hf : (cfg0.win 3).flush t = true) :
    (dats m 0 c).flushed 3 t = ((cfg0.win 3).blk t).view.read (Elt Ideal) (countArr m c) := by
  have h4 : t.val % 5 = 4 := (flush0_3 t).mp hf
  obtain ⟨-, -, -, -, e4, -, -, e7, -⟩ := idx_facts t
  show (cfg0.win 3).cut (grid0.coords t) ((dats m 0 c).after 3 t) = _
  rw [after0_3]
  funext y
  rw [View.read_apply]
  show (outsAt0 m c t.val t.isLt).2.1 y = countArr m c (((cfg0.win 3).blk t).view.emb y)
  rw [count_at m c t h4 y]
  unfold countArr
  refine congrArg (tileCount m c) (Fin.ext ?_)
  show t.val / 5 = win0_3.index t (0 : Fin 3) * 1 + 1 * (y 0).val
  have hy : (y 0).val < 1 := (y 0).isLt
  rw [e7]; omega

/-- An index of the count array is in point `t`'s block iff each coordinate is in the block's range. -/
theorem mem_blk3 (t : Fin cfg0.N) (i : S8x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v2_1).slice (win0_3.rect t)).set ↔ _
  rw [View.set_slice_whole, Rect.mem_set_unit]
  exact Iff.rfl

/-- Every entry of the count array is written by the last point of its row tile. -/
theorem cover3 (i : S8x1x1.Idx) :
    ∃ t : Fin cfg0.N, (cfg0.win 3).flush t = true ∧ i ∈ ((cfg0.win 3).blk t).view.set := by
  have hN : cfg0.N = 40 := N_0
  have h0 : (i 0).val < 8 := (i 0).isLt
  have h1 : (i 1).val < 1 := (i 1).isLt
  have h2 : (i 2).val < 1 := (i 2).isLt
  have ht : 5 * (i 0).val + 4 < cfg0.N := by omega
  obtain ⟨-, -, -, -, e4, e5, e6, e7, e8, e9, -⟩ := idx_facts ⟨5 * (i 0).val + 4, ht⟩
  have hv : (⟨5 * (i 0).val + 4, ht⟩ : Fin cfg0.N).val = 5 * (i 0).val + 4 := rfl
  refine ⟨⟨5 * (i 0).val + 4, ht⟩, (flush0_3 _).mpr (by rw [hv]; omega), ?_⟩
  rw [mem_blk3]
  intro a
  match a with
  | ⟨0, _⟩ =>
    show win0_3.index _ (0 : Fin 3) * 1 ≤ (i 0).val ∧ (i 0).val < win0_3.index _ (0 : Fin 3) * 1 + 1
    rw [e7, hv]; omega
  | ⟨1, _⟩ =>
    show win0_3.index _ (1 : Fin 3) * 1 ≤ (i 1).val ∧ (i 1).val < win0_3.index _ (1 : Fin 3) * 1 + 1
    rw [e8]; omega
  | ⟨2, _⟩ =>
    show win0_3.index _ (2 : Fin 3) * 1 ≤ (i 2).val ∧ (i 2).val < win0_3.index _ (2 : Fin 3) * 1 + 1
    rw [e9]; omega

/-- The count array after the run. -/
theorem final3 (c : Dev nD) : (dats m 0 c).arrAt 3 cfg0.N = countArr m c :=
  (dats m 0 c).arrAt_eq_of_cover 3 (countArr m c) (flushed3_eq m c) cover3

end Cert.KernelIdeal.KValue

end
-- ==== Proof.KernelTail.lean ====
/-
  The kernel program's result.

  After the region the program sums the eight tiles' losses, sums the eight tiles' counts, and divides. Each tile's
  entry is a sum over its 1024 rows, so each of the two sums is a sum over all 8192 flat rows; the result is the sum
  of the rows' masked losses of their finished running sums, over the number of unmasked rows.
-/
import proofs.«402886_j18047452578173_2_alg».proof.Proof.KernelArrays
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Acc Cert.KernelIdeal.Pay Cert.Nll

variable (m : (ℓ : Loc nD τ sig) → Buf (Elt Ideal) ℓ) (ρ : Dev nD → PrngReg)

/-- The kernel's mean loss from flat rows: each row's picked probability is its running sum after the fifth
    column tile. -/
def kresult (A : Fin 8192 → ℕ → EReal) (T : Fin 8192 → BitVec 32) : EReal :=
  Ideal.div (∑ r, (if T r = 0#32 then (0 : EReal) else 0 - Ideal.log (upto (A r) (T r) 4))) (∑ r, weight (T r))

/-- The entries of an `[8, 1, 1]` array are its row tiles. -/
def tilesEquiv : Fin 8 ≃ S8x1x1.Idx where
  toFun a := ix3 a (0 : Fin 1) (0 : Fin 1)
  invFun i := ⟨(i 0).val, (i 0).isLt⟩
  left_inv _ := rfl
  right_inv i := by
    funext a
    match a with
    | ⟨0, _⟩ => rfl
    | ⟨1, _⟩ => exact Fin.ext (by have h : (i 1).val < 1 := (i 1).isLt; show 0 = (i 1).val; omega)
    | ⟨2, _⟩ => exact Fin.ext (by have h : (i 2).val < 1 := (i 2).isLt; show 0 = (i 2).val; omega)

/-- After the region the losses' array is the per-tile sums. -/
theorem arr2 (c : Dev nD) :
    Pipeline.withArrays (cfgs 0).spec c (V0 m c) (fun w => (dats m 0 c).arrAt w (cfgs 0).N) (Proc.devRef .tc main_v2_0)
      = lossArr m c :=
  (Pipeline.withArrays_arr spec0 launch0.win.arr_inj c _ _ 2).trans (final2 m c)

/-- After the region the counts' array is the per-tile counts. -/
theorem arr3 (c : Dev nD) :
    Pipeline.withArrays (cfgs 0).spec c (V0 m c) (fun w => (dats m 0 c).arrAt w (cfgs 0).N) (Proc.devRef .tc main_v2_1)
      = countArr m c :=
  (Pipeline.withArrays_arr spec0 launch0.win.arr_inj c _ _ 3).trans (final3 m c)

/-- The sum of the tiles' losses is the sum over all rows. -/
theorem sum_lossArr (c : Dev nD) :
    ∑ i : S8x1x1.Idx, lossArr m c i
      = ∑ r, (if rowsT m c r = 0#32 then (0 : EReal) else 0 - Ideal.log (upto (rowsA m c r) (rowsT m c r) 4)) := by
  rw [← Equiv.sum_comp tilesEquiv (lossArr m c)]
  show ∑ a : Fin 8, tileLoss m c a = _
  unfold tileLoss
  exact sum_tiles (fun r => if rowsT m c r = 0#32 then (0 : EReal) else 0 - Ideal.log (upto (rowsA m c r) (rowsT m c r) 4))

/-- The sum of the tiles' counts is the sum of the rows' weights. -/
theorem sum_countArr (c : Dev nD) : ∑ i : S8x1x1.Idx, countArr m c i = ∑ r, weight (rowsT m c r) := by
  rw [← Equiv.sum_comp tilesEquiv (countArr m c)]
  show ∑ a : Fin 8, tileCount m c a = _
  unfold tileCount
  exact sum_tiles (fun r => weight (rowsT m c r))

/-- The program's result after the tail. -/
theorem tail_eq (c : Dev nD) :
    Pipeline.afterTail₀ cfgs (dats m) 0 (V0 m) [hostOps1] c main_v5 = fun _ => kresult (rowsA m c) (rowsT m c) := by
  unfold Pipeline.afterTail₀
  show StableHlo.after hostOps1 _ (Proc.devRef .tc main_v5) = _
  after_results
  rw [arr2 m c, arr3 m c]
  funext j
  simp only [Host.divf, Host.reduceAdd, Ideal.hostReduceAdd_def, Ideal.hostDivf_def]
  rw [Ideal.hostReduceAdd_total reducesTo_S8x1x1_S_d0_1_2 (fun b => b.elim0) (lossArr m c) _ j,
    Ideal.hostReduceAdd_total reducesTo_S8x1x1_S_d0_1_2 (fun b => b.elim0) (countArr m c) _ j,
    sum_lossArr, sum_countArr]
  show Ideal.div (Ideal.ofBits .f32 0#32 + _) (Ideal.ofBits .f32 0#32 + _) = _
  rw [Ideal.ofBits_zero_f32, zero_add, zero_add]
  rfl

/-- The run, read: the result at the kernel's mean loss, the arguments unchanged. -/
theorem run : θ_run defs (onTc (τ := τ) (main (F := Ideal))) ⟨m, fun _ => 0, ρ⟩ fun r => ∀ c : Dev nD,
      r.2.mem ((c.tc : Thread nD τ).loc main_v5) = (fun _ => kresult (rowsA m c) (rowsT m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.RefValue.lean ====
/-
  The reference's result, read one operation at a time, is the mean masked loss of the flat-row arrays.
-/
import proofs.«402886_j18047452578173_2_alg».proof.Proof.RefReadP
import proofs.«402886_j18047452578173_2_alg».proof.Proof.Spec
import Idealize.ShloMosaic.Lib.ValueIdx
import Idealize.ShloMosaic.Lib.Pipeline.Value
import Idealize.ShloMosaic.PureOps.Ideal.Laws
import Idealize.ShloMosaic.Lib.StableHlo.Predicate

noncomputable section

namespace Cert.ReferenceIdeal.RefValue

open Cert.ReferenceIdeal Idealize.ShloMosaic Idealize.ShloMosaic.ValueIdx

/-- The probabilities by flat rows: row `r` is position `r % 512` of group `r / 512`; columns past the last are `0`. -/
def flatA (x0 : S16x512x32000.Idx → EReal) : Fin 8192 → ℕ → EReal :=
  fun r k => if h : k < 32000 then x0 (ix3 (⟨r.val / 512, by omega⟩ : Fin 16) (⟨r.val % 512, by omega⟩ : Fin 512) (⟨k, h⟩ : Fin 32000)) else 0

/-- The labels by flat rows. -/
def flatT (x1 : S16x512.Idx → BitVec 32) : Fin 8192 → BitVec 32 :=
  fun r => x1 (ix2 (⟨r.val / 512, by omega⟩ : Fin 16) (⟨r.val % 512, by omega⟩ : Fin 512))

/-! ## Words: a label below 32000 is a nonnegative signed number -/

/-- A small word read signed is its value. -/
theorem toInt_of_small {a : BitVec 32} (ha : a.toNat < 32000) : a.toInt = (a.toNat : ℤ) :=
  BitVec.toInt_eq_toNat_of_lt (by omega)

/-- A small word is not negative. -/
theorem slt_zero_of_small {a : BitVec 32} (ha : a.toNat < 32000) : IntOp.cmpi .slt a 0#32 = 0#1 := by
  refine eq_zero_of_ne_one fun h => ?_
  have h' := IntOp.cmpi_slt.1 h
  rw [toInt_of_small ha, show (0#32 : BitVec 32).toInt = 0 from by decide] at h'
  omega

/-- A small word is at least zero. -/
theorem sge_zero_of_small {a : BitVec 32} (ha : a.toNat < 32000) : IntOp.cmpi .sge a 0#32 = 1#1 := by
  rw [IntOp.cmpi_sge, toInt_of_small ha, show (0#32 : BitVec 32).toInt = 0 from by decide]
  omega

/-- A word below 32000 is at most 31999. -/
theorem sle_last_of_small {a : BitVec 32} (ha : a.toNat < 32000) : IntOp.cmpi .sle a 31999#32 = 1#1 := by
  rw [IntOp.cmpi_sle, toInt_of_small ha, show (31999#32 : BitVec 32).toInt = 31999 from by decide]
  omega

/-- Clamping a small word into the column range leaves it. -/
theorem clamp_of_small {a : BitVec 32} (ha : a.toNat < 32000) : min a.toInt.toNat (32000 - 1) = a.toNat := by
  rw [toInt_of_small ha, Int.toNat_natCast]
  omega

/-- A conjunction of ones, from one, is one. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

/-! ## The index stage: under the range hypothesis the wrapped index is the label -/

section
variable (x1 : (⟨S16x512, .i32⟩ : BufTy).Contents (Elt Ideal)) (hr : ∀ j : S16x512.Idx, (x1 j).toNat < 32000)
include hr

/-- The label is not negative, so the wrap leaves it. -/
theorem wrapped_eq (i : S16x512x1.Idx) :
    ReadP.val_main_call0_v4 (F := Ideal) x1 i = x1 (ReadP.idx_main_v0 i) := by
  rw [ReadP.val_main_call0_v4_apply, ReadP.val_main_call0_v1_apply, ReadP.val_main_v0_apply,
    ReadP.val_main_call0_v0_apply, ReadP.val_main_call0_c_apply, slt_zero_of_small (hr _), select_zero]

/-- The same after the reshape that adds a unit axis. -/
theorem index_eq (i : S16x512x1x1.Idx) :
    ReadP.val_main_call0_v5 (F := Ideal) x1 i = x1 (ReadP.idx_main_v0 (ReadP.idx_main_call0_v5 i)) := by
  rw [ReadP.val_main_call0_v5_apply, wrapped_eq x1 hr]

/-- The index passes the range test everywhere. -/
theorem inrange_bit (i : S16x512x1x1.Idx) : ReadP.val_main_call0_v11 (F := Ideal) x1 i = 1#1 := by
  rw [ReadP.val_main_call0_v11_apply, ReadP.val_main_call0_v7_apply, ReadP.val_main_call0_v10_apply,
    index_eq x1 hr, ReadP.val_main_call0_v6_apply, ReadP.val_main_call0_c_2_apply,
    ReadP.val_main_call0_v9_apply, ReadP.val_main_call0_v8_apply, ReadP.val_main_call0_c_1_apply,
    sge_zero_of_small (hr _), sle_last_of_small (hr _)]
  decide

/-- So does its conjunction over the unit axis. -/
theorem inrange_all (i : S16x512x1.Idx) : ReadP.val_main_call0_v12 (F := Ideal) x1 i = 1#1 := by
  unfold ReadP.val_main_call0_v12
  rw [Host.reduce_eq_foldl]
  exact foldl_andi_ones _ (inrange_bit x1 hr) _

end

/-! ## The gather: with batching axes 0 and 1 and the start index on axis 2 it reads row `(b, s)` at the label -/

/-- The index array's position `(b, s, 0, 0)` holds the label of row `(b, s)`. -/
theorem idx_label (b : Fin 16) (s : Fin 512) :
    ReadP.idx_main_v0 (ReadP.idx_main_call0_v5 (ix4 b s (0 : Fin 1) (0 : Fin 1))) = ix2 b s := by
  funext a
  match a with
  | ⟨0, _⟩ => exact Fin.ext (by show (((b.val * 512 + s.val) * 1 + 0) * 1 + 0) / 512 = b.val; omega)
  | ⟨1, _⟩ => exact Fin.ext (by show (((b.val * 512 + s.val) * 1 + 0) * 1 + 0) / 1 % 512 = s.val; omega)

section
variable (x0 : (⟨S16x512x32000, .f32⟩ : BufTy).Contents (Elt Ideal))
  (x1 : (⟨S16x512, .i32⟩ : BufTy).Contents (Elt Ideal)) (hr : ∀ j : S16x512.Idx, (x1 j).toNat < 32000)
include hr

/-- The gather at `(b, s, 0)`: the batching axes carry `b` and `s`, and the clamped start index on the column axis is
    the label, which is already a column number. -/
theorem gather_read (b : Fin 16) (s : Fin 512) :
    ReadP.val_main_call0_v13 (F := Ideal) x0 x1 (ix3 b s (0 : Fin 1))
      = x0 (ix3 b s (⟨(x1 (ix2 b s)).toNat, hr _⟩ : Fin 32000)) := by
  unfold ReadP.val_main_call0_v13 Host.gather
  congr 1
  funext a
  refine Fin.ext ?_
  show gather_S16x512x32000_S16x512x1x1_S16x512x1_n_2_01_01_2_3_111.start (ix3 b s (0 : Fin 1)) (ReadP.val_main_call0_v5 (F := Ideal) x1) a
      + gather_S16x512x32000_S16x512x1x1_S16x512x1_n_2_01_01_2_3_111.batchCoord (ix3 b s (0 : Fin 1)) a + gather_S16x512x32000_S16x512x1x1_S16x512x1_n_2_01_01_2_3_111.offCoord (ix3 b s (0 : Fin 1)) a = _
  match a with
  | ⟨0, _⟩ =>
    have e0 : gather_S16x512x32000_S16x512x1x1_S16x512x1_n_2_01_01_2_3_111.start (ix3 b s (0 : Fin 1)) (ReadP.val_main_call0_v5 (F := Ideal) x1) ⟨0, by decide⟩ = 0 := rfl
    have e1 : gather_S16x512x32000_S16x512x1x1_S16x512x1_n_2_01_01_2_3_111.batchCoord (ix3 b s (0 : Fin 1)) ⟨0, by decide⟩ = b.val := rfl
    have e2 : gather_S16x512x32000_S16x512x1x1_S16x512x1_n_2_01_01_2_3_111.offCoord (ix3 b s (0 : Fin 1)) ⟨0, by decide⟩ = 0 := rfl
    rw [e0, e1, e2]; show 0 + b.val + 0 = b.val; omega
  | ⟨1, _⟩ =>
    have e0 : gather_S16x512x32000_S16x512x1x1_S16x512x1_n_2_01_01_2_3_111.start (ix3 b s (0 : Fin 1)) (ReadP.val_main_call0_v5 (F := Ideal) x1) ⟨1, by decide⟩ = 0 := rfl
    have e1 : gather_S16x512x32000_S16x512x1x1_S16x512x1_n_2_01_01_2_3_111.batchCoord (ix3 b s (0 : Fin 1)) ⟨1, by decide⟩ = s.val := rfl
    have e2 : gather_S16x512x32000_S16x512x1x1_S16x512x1_n_2_01_01_2_3_111.offCoord (ix3 b s (0 : Fin 1)) ⟨1, by decide⟩ = 0 := rfl
    rw [e0, e1, e2]; show 0 + s.val + 0 = s.val; omega
  | ⟨2, _⟩ =>
    have hsi : ∀ h, gather_S16x512x32000_S16x512x1x1_S16x512x1_n_2_01_01_2_3_111.siIdx (ix3 b s (0 : Fin 1)) ⟨0, h⟩ = ix4 b s (0 : Fin 1) (0 : Fin 1) := fun h => by
      funext c
      refine Fin.ext ?_
      match c with
      | ⟨0, _⟩ => rfl
      | ⟨1, _⟩ => rfl
      | ⟨2, _⟩ => rfl
      | ⟨3, _⟩ => rfl
    have e0 : gather_S16x512x32000_S16x512x1x1_S16x512x1_n_2_01_01_2_3_111.start (ix3 b s (0 : Fin 1)) (ReadP.val_main_call0_v5 (F := Ideal) x1) ⟨2, by decide⟩
        = min (ReadP.val_main_call0_v5 (F := Ideal) x1 (gather_S16x512x32000_S16x512x1x1_S16x512x1_n_2_01_01_2_3_111.siIdx (ix3 b s (0 : Fin 1)) ⟨0, by decide⟩)).toInt.toNat (32000 - 1) := rfl
    have e1 : gather_S16x512x32000_S16x512x1x1_S16x512x1_n_2_01_01_2_3_111.batchCoord (ix3 b s (0 : Fin 1)) ⟨2, by decide⟩ = 0 := rfl
    have e2 : gather_S16x512x32000_S16x512x1x1_S16x512x1_n_2_01_01_2_3_111.offCoord (ix3 b s (0 : Fin 1)) ⟨2, by decide⟩ = 0 := rfl
    rw [e0, e1, e2, hsi, index_eq x1 hr, idx_label, clamp_of_small (hr _)]
    rfl

end

/-! ## One row: the picked probability and the row's loss -/

section
variable (x0 : (⟨S16x512x32000, .f32⟩ : BufTy).Contents (Elt Ideal))
  (x1 : (⟨S16x512, .i32⟩ : BufTy).Contents (Elt Ideal)) (hr : ∀ j : S16x512.Idx, (x1 j).toNat < 32000)
include hr

/-- The picked probability of row `(b, s)`: the range test passes, so the select keeps the gathered element. -/
theorem picked (b : Fin 16) (s : Fin 512) :
    ReadP.val_main_v2 (F := Ideal) x0 x1 (ix2 b s) = x0 (ix3 b s (⟨(x1 (ix2 b s)).toNat, hr _⟩ : Fin 32000)) := by
  have hi : ReadP.idx_main_v2 (ix2 b s) = ix3 b s (0 : Fin 1) := by
    funext a
    match a with
    | ⟨0, _⟩ => exact Fin.ext (by show (b.val * 512 + s.val) / 512 = b.val; omega)
    | ⟨1, _⟩ => exact Fin.ext (by show (b.val * 512 + s.val) / 1 % 512 = s.val; omega)
    | ⟨2, _⟩ => rfl
  rw [ReadP.val_main_v2_apply, hi, ReadP.val_main_v1_apply, inrange_all x1 hr, select_one, gather_read x0 x1 hr]

/-- The masked term of row `(b, s)` is the row's loss. -/
theorem row_loss (b : Fin 16) (s : Fin 512) :
    ReadP.val_main_v7 (F := Ideal) x0 x1 (ix2 b s)
      = Cert.Nll.loss (x0 (ix3 b s (⟨(x1 (ix2 b s)).toNat, hr _⟩ : Fin 32000))) (x1 (ix2 b s)) := by
  rw [ReadP.val_main_v7_apply, ReadP.val_main_v4_apply, ReadP.val_main_v3_apply, ReadP.val_main_c_apply]
  unfold Cert.Nll.loss
  by_cases h0 : x1 (ix2 b s) = 0#32
  · rw [if_pos h0, show IntOp.cmpi .ne (x1 (ix2 b s)) 0#32 = 0#1 from eq_zero_of_ne_one fun h => IntOp.cmpi_ne.1 h h0,
      select_zero, ReadP.val_main_call1_v1_apply, ReadP.val_main_call1_v0_apply, ReadP.val_main_cst_apply]
    exact Ideal.ofBits_zero_f32
  · rw [if_neg h0, IntOp.cmpi_ne.2 h0, select_one, ReadP.val_main_v6_apply, ReadP.val_main_v5_apply, picked x0 x1 hr]
    rfl

end

/-! ## Flat rows: row `512 b + s` is position `s` of group `b` -/

theorem flatT_group (x1 : S16x512.Idx → BitVec 32) (b : Fin 16) (s : Fin 512) :
    flatT x1 (Cert.Nll.rowOfGroup b s) = x1 (ix2 b s) := by
  unfold flatT
  congr 1
  funext a
  match a with
  | ⟨0, _⟩ => exact Fin.ext (by show (512 * b.val + s.val) / 512 = b.val; omega)
  | ⟨1, _⟩ => exact Fin.ext (by show (512 * b.val + s.val) % 512 = s.val; omega)

theorem flatA_group (x0 : S16x512x32000.Idx → EReal) (b : Fin 16) (s : Fin 512) (k : ℕ) (hk : k < 32000) :
    flatA x0 (Cert.Nll.rowOfGroup b s) k = x0 (ix3 b s (⟨k, hk⟩ : Fin 32000)) := by
  unfold flatA
  rw [dif_pos hk]
  congr 1
  funext a
  match a with
  | ⟨0, _⟩ => exact Fin.ext (by show (512 * b.val + s.val) / 512 = b.val; omega)
  | ⟨1, _⟩ => exact Fin.ext (by show (512 * b.val + s.val) % 512 = s.val; omega)
  | ⟨2, _⟩ => rfl

/-! ## The numerator: the sum of the rows' losses -/

theorem numerator (x0 : (⟨S16x512x32000, .f32⟩ : BufTy).Contents (Elt Ideal))
    (x1 : (⟨S16x512, .i32⟩ : BufTy).Contents (Elt Ideal)) (hr : ∀ j : S16x512.Idx, (x1 j).toNat < 32000) (i : S_.Idx) :
    ReadP.val_main_v11 (F := Ideal) x0 x1 i
      = ∑ r, Cert.Nll.loss (flatA x0 r (flatT x1 r).toNat) (flatT x1 r) := by
  rw [ReadP.val_main_v11_apply, ReadP.val_main_cst_1_apply,
    show FloatOps.ofBits (F := Ideal) .f32 0x00000000#32 = (0 : EReal) from Ideal.ofBits_zero_f32, zero_add, sum_idx2]
  refine Eq.trans ?_ (Cert.Nll.sum_groups fun r => Cert.Nll.loss (flatA x0 r (flatT x1 r).toNat) (flatT x1 r))
  refine Finset.sum_congr rfl fun b _ => Finset.sum_congr rfl fun s _ => ?_
  show ReadP.val_main_v7 (F := Ideal) x0 x1 (ix2 b s)
    = Cert.Nll.loss (flatA x0 (Cert.Nll.rowOfGroup b s) (flatT x1 (Cert.Nll.rowOfGroup b s)).toNat) (flatT x1 (Cert.Nll.rowOfGroup b s))
  rw [row_loss x0 x1 hr, flatT_group, flatA_group x0 b s _ (hr _)]

/-! ## The denominator: the number of rows whose label is not the padding label -/

/-- There are 8192 rows, so a count of rows is at most that. -/
theorem count_le (p : S16x512.Idx → Prop) [DecidablePred p] :
    ∑ j : S16x512.Idx, (if p j then 0 else 1 : ℕ) ≤ 8192 := by
  rw [sum_idx2]
  calc ∑ b : Fin 16, ∑ s : Fin 512, (if p (ix2 b s) then 0 else 1 : ℕ)
      ≤ ∑ b : Fin 16, ∑ s : Fin 512, 1 :=
        Finset.sum_le_sum fun b _ => Finset.sum_le_sum fun s _ => by split <;> omega
    _ = 8192 := by simp

/-- A count, as an extended real, is the sum of the weights. -/
theorem coe_count {ι : Type} (S : Finset ι) (p : ι → Prop) [DecidablePred p] :
    (((∑ i ∈ S, (if p i then 0 else 1 : ℕ) : ℕ) : ℝ) : EReal) = ∑ i ∈ S, (if p i then (0 : EReal) else 1) := by
  classical
  induction S using Finset.induction_on with
  | empty => simp
  | insert a S ha ih =>
    rw [Finset.sum_insert ha, Finset.sum_insert ha, Nat.cast_add, EReal.coe_add, ih]
    congr 1
    split <;> simp

section
variable (x1 : (⟨S16x512, .i32⟩ : BufTy).Contents (Elt Ideal))

/-- A row's widened mask bit is its weight as a number. -/
theorem mask_word (j : S16x512.Idx) :
    (ReadP.val_main_v8 (F := Ideal) x1 j).toNat = if x1 j = 0#32 then 0 else 1 := by
  rw [ReadP.val_main_v8_apply, StableHlo.Predicate.toNat_setWidth_bit, ReadP.val_main_v4_apply, ReadP.val_main_v3_apply,
    ReadP.val_main_c_apply]
  by_cases h0 : x1 j = 0#32
  · rw [if_pos h0, if_neg fun h => IntOp.cmpi_ne.1 h h0]
  · rw [if_neg h0, if_pos (IntOp.cmpi_ne.2 h0)]

/-- The integer sum of the mask does not wrap: it is the number of unmasked rows. -/
theorem count_word (i : S_.Idx) :
    (ReadP.val_main_v9 (F := Ideal) x1 i).toNat = ∑ j : S16x512.Idx, (if x1 j = 0#32 then 0 else 1 : ℕ) := by
  classical
  haveI : Subsingleton S_.Idx := ⟨fun a b => funext fun d => d.elim0⟩
  unfold ReadP.val_main_v9
  rw [Host.reduce_eq_fold, Finset.filter_true_of_mem fun j _ => Subsingleton.elim _ _]
  have hsum : ∑ j : S16x512.Idx, (ReadP.val_main_v8 (F := Ideal) x1 j).toNat
      = ∑ j : S16x512.Idx, (if x1 j = 0#32 then 0 else 1 : ℕ) := Finset.sum_congr rfl fun j _ => mask_word x1 j
  show (Finset.fold IntOp.addi 0#32 (ReadP.val_main_v8 (F := Ideal) x1) Finset.univ).toNat = _
  rw [StableHlo.Predicate.toNat_fold_addi _ _ (by rw [hsum]; exact lt_of_le_of_lt (count_le _) (by norm_num)), hsum]

theorem denominator (i : S_.Idx) :
    ReadP.val_main_v10 (F := Ideal) x1 i = ∑ r, Cert.Nll.weight (flatT x1 r) := by
  rw [ReadP.val_main_v10_apply]
  show (((ReadP.val_main_v9 (F := Ideal) x1 i).toInt : ℝ) : EReal) = _
  have hn := count_word x1 i
  have hle : (ReadP.val_main_v9 (F := Ideal) x1 i).toNat ≤ 8192 := hn ▸ count_le _
  rw [BitVec.toInt_eq_toNat_of_lt (by omega), Int.cast_natCast, hn, coe_count, sum_idx2]
  refine Eq.trans ?_ (Cert.Nll.sum_groups fun r => Cert.Nll.weight (flatT x1 r))
  refine Finset.sum_congr rfl fun b _ => Finset.sum_congr rfl fun s _ => ?_
  show (if x1 (ix2 b s) = 0#32 then (0 : EReal) else 1) = Cert.Nll.weight (flatT x1 (Cert.Nll.rowOfGroup b s))
  rw [flatT_group]
  rfl

end

/-- With every label a column number, the reference's last stage is the mean masked loss. -/
theorem result_eq (x0 : (⟨S16x512x32000, .f32⟩ : BufTy).Contents (Elt Ideal)) (x1 : (⟨S16x512, .i32⟩ : BufTy).Contents (Elt Ideal))
    (hr : ∀ j : S16x512.Idx, (x1 j).toNat < 32000) :
    Cert.ReferenceIdeal.ReadP.val_main_v12 (F := Ideal) x0 x1 = fun _ => Cert.Nll.result (flatA x0) (flatT x1) := by
  funext i
  rw [ReadP.val_main_v12_apply, Ideal.hostDivf_def, numerator x0 x1 hr, denominator x1]
  rfl

end Cert.ReferenceIdeal.RefValue

end
-- ==== Proof.Bridge.lean ====
/-
  The two programs compute one number.

  The kernel program first views the probabilities as 8192 rows of 32000 and the labels as a column of 8192: flat row
  `r` is position `r % 512` of group `r / 512`, so the kernel's flat rows are the reference's. With every label a
  column number below 32000, a row's running sum after the fifth column tile is the row's picked probability, and
  `0 - x` is `-x`; so the kernel's mean loss is the reference's.
-/
import proofs.«402886_j18047452578173_2_alg».proof.Proof.KernelTail
import proofs.«402886_j18047452578173_2_alg».proof.Proof.RefValue

noncomputable section

open Idealize.ShloMosaic Idealize.ShloMosaic.TcCoe Idealize.SL.Sem Idealize.ShloMosaic.ValueIdx

namespace Cert.KernelIdeal.Bridge

open Cert.KernelIdeal Cert.KernelIdeal.Gen Cert.KernelIdeal.KValue Cert.Nll

variable (m : (ℓ : Loc nD τ sig) → Buf (Elt Ideal) ℓ)

/-- The region finds the labels as the argument viewed as a column. -/
theorem larr_eq (c : Dev nD) :
    larr m c = shapeCast S8192x1 (m ((c.tc : Thread nD τ).loc main_arg1)) shapeCasts_S16x512_S8192x1 := by
  show StableHlo.after hostOps0 (fun b => m (c, b)) (Proc.devRef .tc main_v1) = _
  after_results
  rfl

/-- The region finds the probabilities as the argument viewed as 8192 rows. -/
theorem parr_eq (c : Dev nD) :
    parr m c = shapeCast S8192x32000 (m ((c.tc : Thread nD τ).loc main_arg0)) shapeCasts_S16x512x32000_S8192x32000 := by
  show StableHlo.after hostOps0 (fun b => m (c, b)) (Proc.devRef .tc main_v0) = _
  after_results
  rfl

/-- The kernel's labels by flat rows are the reference's. -/
theorem rowsT_eq (c : Dev nD) :
    rowsT m c = Cert.ReferenceIdeal.RefValue.flatT (m ((c.tc : Thread nD τ).loc main_arg1)) := by
  funext r
  unfold rowsT Cert.ReferenceIdeal.RefValue.flatT
  rw [larr_eq]
  refine shapeCast_apply _ shapeCasts_S16x512_S8192x1 _ _ ?_
  rw [Shape.rowMajor_val_two, Shape.rowMajor_val_two]
  show r.val / 512 * 512 + r.val % 512 = r.val * 1 + 0
  omega

/-- The kernel's probabilities by flat rows are the reference's. -/
theorem rowsA_eq (c : Dev nD) :
    rowsA m c = Cert.ReferenceIdeal.RefValue.flatA (m ((c.tc : Thread nD τ).loc main_arg0)) := by
  funext r k
  unfold rowsA Cert.ReferenceIdeal.RefValue.flatA
  by_cases h : k < 32000
  · rw [dif_pos h, dif_pos h, parr_eq]
    refine shapeCast_apply _ shapeCasts_S16x512x32000_S8192x32000 _ _ ?_
    rw [Shape.rowMajor_val_three, Shape.rowMajor_val_two]
    show (r.val / 512 * 512 + r.val % 512) * 32000 + k = r.val * 32000 + k
    have : r.val / 512 * 512 + r.val % 512 = r.val := by omega
    rw [this]
  · rw [dif_neg h, dif_neg h]

/-- With every label a column number the kernel's mean loss is the mean masked loss. -/
theorem kresult_eq (A : Fin 8192 → ℕ → EReal) (T : Fin 8192 → BitVec 32) (hT : ∀ r, (T r).toNat < 32000) :
    kresult A T = Cert.Nll.result A T := by
  unfold kresult Cert.Nll.result
  refine congrArg (fun x => Ideal.div x _) (Finset.sum_congr rfl fun r _ => ?_)
  unfold Cert.Nll.loss
  rw [upto_four (A r) (T r) (hT r), zero_sub]

end Cert.KernelIdeal.Bridge

end
-- ==== Proof.PreDecode.lean ====
/-
  What the precondition says of the labels: each is a column number, `0 ≤ label < 32000`, so as a natural number
  it is below 32000.
-/
import proofs.«402886_j18047452578173_2_alg».proof.Pre_finite_inputs
import proofs.«402886_j18047452578173_2_alg».proof.Proof.Gen.Pre_finite_inputs
import Idealize.ShloMosaic.Lib.StableHlo.Predicate
import Idealize.ShloMosaic.Lib.ReduceAll
import Idealize.ShloMosaic.Lib.ValueIdx

noncomputable section

namespace Cert.Pre_finite_inputs.Decode

open Cert.Pre_finite_inputs Idealize.ShloMosaic

variable {F : FTy → Type} [FloatOps F]

/-- Under the precondition every label is a column number. -/
theorem label_lt (x0 : FVec F S16x512x32000 .f32) (x1 : IVec S16x512 32)
    (h : Cert.Pre_finite_inputs.fn (F := F) x0 x1 = fun _ => 1#1) :
    ∀ j : S16x512.Idx, (x1 j).toNat < 32000 := by
  intro j
  -- the predicate's one word is 1
  have h0 := congrFun h ValueIdx.ix0
  dsimp only [Cert.Pre_finite_inputs.fn] at h0
  -- it is the conjunction of the finiteness test and the range test; keep the range test
  have h1 := (IntOp.andi_eq_one.1 h0).2
  -- the range test is a conjunction over all positions: read it at position j
  haveI : Subsingleton S_.Idx := ⟨fun a b => funext fun d => d.elim0⟩
  have h2 := Host.reduce_andi_all _ _ _ _ _ h1 j
  -- at j it is the conjunction of the two signed comparisons
  obtain ⟨h3, h4⟩ := IntOp.andi_eq_one.1 h2
  have hge : (0#32 : BitVec 32).toInt ≤ (x1 j).toInt := IntOp.cmpi_sge.1 h3
  have hlt : (x1 j).toInt < (32000#32 : BitVec 32).toInt := IntOp.cmpi_slt.1 h4
  rw [show (0#32 : BitVec 32).toInt = 0 from by decide] at hge
  rw [show (32000#32 : BitVec 32).toInt = 32000 from by decide] at hlt
  -- a word that is nonnegative as a signed number has its top bit clear, and then reads the same unsigned
  have hp : 2 * (x1 j).toNat < 2 ^ 32 := BitVec.toInt_pos_iff.1 hge
  rw [BitVec.toInt_eq_toNat_of_lt hp] at hlt
  omega

end Cert.Pre_finite_inputs.Decode

end
-- ==== Proof.lean ====
/-
  A masked mean negative log-likelihood, computed two ways.

  Inputs: probabilities `output : f32[16, 512, 32000]` and labels `target : i32[16, 512]`; every probability finite
  and every label a column number, `0 ≤ target < 32000`.

  The reference picks, for each of the 8192 rows, the probability at the row's label, takes `-log` of it where the
  label is not the padding label `0` and `0` elsewhere, sums over the rows, and divides by the number of rows whose
  label is not `0`.

  The kernel streams the probabilities in tiles of 1024 rows by 6400 columns. Within a row tile it walks the five
  column tiles in order and keeps, per row, a running sum of the one-hot selection "column number = label minus
  the tile's first column"; after the fifth column tile that running sum is the picked probability, since exactly
  one column of the 32000 matches and the other terms are zeros. It then sums the masked `0 - log` over the tile's
  rows, and the mask as zeros and ones, one pair per row tile; the eight pairs are summed after the region and
  divided.

  Over the extended reals the two are equal: `0 - x = -x`, zero is neutral for addition, and a sum over eight tiles
  of 1024 rows is the sum over sixteen groups of 512 rows, addition being commutative and associative. Finiteness of
  the probabilities is never used; the labels' range is, because a label outside it matches no column in the kernel
  while the reference wraps or fills it.
-/
import proofs.«402886_j18047452578173_2_alg».proof.Defs
import proofs.«402886_j18047452578173_2_alg».proof.Proof.Gen.Kernel
import proofs.«402886_j18047452578173_2_alg».proof.Proof.Gen.Kernel.Skeleton
import proofs.«402886_j18047452578173_2_alg».proof.Proof.Gen.Kernel.Launch
import proofs.«402886_j18047452578173_2_alg».proof.Proof.Gen.Kernel.Points
import proofs.«402886_j18047452578173_2_alg».proof.Proof.Gen.Kernel.Frame
import proofs.«402886_j18047452578173_2_alg».proof.Proof.Gen.KernelIdeal
import proofs.«402886_j18047452578173_2_alg».proof.Proof.Gen.KernelIdeal.Skeleton
import proofs.«402886_j18047452578173_2_alg».proof.Proof.Gen.KernelIdeal.Launch
import proofs.«402886_j18047452578173_2_alg».proof.Proof.Gen.KernelIdeal.Points
import proofs.«402886_j18047452578173_2_alg».proof.Proof.Gen.KernelIdeal.Frame
import proofs.«402886_j18047452578173_2_alg».proof.Proof.Gen.ReferenceIdeal
import proofs.«402886_j18047452578173_2_alg».proof.Proof.Gen.Pre_finite_inputs
import proofs.«402886_j18047452578173_2_alg».proof.Proof.Bridge
import proofs.«402886_j18047452578173_2_alg».proof.Proof.PreDecode
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both programs end with the mean masked loss of the same flat rows. -/
theorem algebraic : Cert.algebraic_KernelIdeal_ReferenceIdeal := by
  intro m ρ m' ρ' hpre hagree
  refine ⟨fun c => fun _ => Cert.KernelIdeal.KValue.kresult (Cert.KernelIdeal.KValue.rowsA m c) (Cert.KernelIdeal.KValue.rowsT m c),
    Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2]
  have hlt := Cert.Pre_finite_inputs.Decode.label_lt (F := Ideal) _ _ (hpre c)
  refine (Cert.ReferenceIdeal.ReadP.val_main_v12_eq (F := Ideal) _ _).trans ?_
  show _ = fun _ => Cert.KernelIdeal.KValue.kresult (Cert.KernelIdeal.KValue.rowsA m c) (Cert.KernelIdeal.KValue.rowsT m c)
  rw [Cert.ReferenceIdeal.RefValue.result_eq _ _ hlt, Cert.KernelIdeal.Bridge.rowsA_eq, Cert.KernelIdeal.Bridge.rowsT_eq,
    Cert.KernelIdeal.Bridge.kresult_eq
      (Cert.ReferenceIdeal.RefValue.flatA (m ((c.tc : Thread Cert.KernelIdeal.nD Cert.KernelIdeal.τ).loc Cert.KernelIdeal.main_arg0)))
      (Cert.ReferenceIdeal.RefValue.flatT (m ((c.tc : Thread Cert.KernelIdeal.nD Cert.KernelIdeal.τ).loc Cert.KernelIdeal.main_arg1)))
      (fun r => hlt _)]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
